-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x32x64 : Shape := ⟨3, ![11008, 32, 64]⟩
abbrev S176128 : Shape := ⟨1, ![176128]⟩
abbrev S352256 : Shape := ⟨1, ![352256]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S352256 : S_.BroadcastsInDim S352256 (![] : Fin 0 → Fin S352256.rank)
  reducesTo_S352256_S_d0 : S352256.ReducesTo [0] S_

variable [Facts]

def fn {F : FTy → Type} [FloatOps F] (main_arg0 : FVec F S2x2048x4096 .f32) (main_arg1 : IVec S11008x32x64 32) (main_arg2 : IVec S176128 32) (main_arg3 : FVec F S352256 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S352256 .f32 := Host.absf main_arg3
  let main_cst_0 : FVec F S_ .f32 := constant S_ .f32 0x7F800000#32
  let main_v5 : FVec F S352256 .f32 := broadcastInDim S352256 ![] bcast_S_S352256 main_cst_0
  let main_v6 : IVec S352256 1 := cmpf .olt main_v4 main_v5
  let main_c_1 : IVec S_ 1 := constantI S_ 1 1#1
  let main_v7 : IVec S_ 1 := (fun x v => Host.reduce IntOp.andi x v reducesTo_S352256_S_d0 h_S_) main_v6 main_c_1
  let main_v8 : IVec S_ 1 := andi main_v3 main_v7
  main_v8
-- ==== Kernel.lean ====
abbrev S2x2048x4096 : Shape := ⟨3, ![2, 2048, 4096]⟩
abbrev S11008x32x64 : Shape := ⟨3, ![11008, 32, 64]⟩
abbrev S176128 : Shape := ⟨1, ![176128]⟩
abbrev S352256 : Shape := ⟨1, ![352256]⟩
abbrev S_ : Shape := ⟨0, ![]⟩
abbrev S11008x32x64x1 : Shape := ⟨4, ![11008, 32, 64, 1]⟩
abbrev S11008x32x64x2 : Shape := ⟨4, ![11008, 32, 64, 2]⟩
abbrev S11008x32x128 : Shape := ⟨3, ![11008, 32, 128]⟩
abbrev S176128x1 : Shape := ⟨2, ![176128, 1]⟩
abbrev S176128x2 : Shape := ⟨2, ![176128, 2]⟩
abbrev S11008x32x1 : Shape := ⟨3, ![11008, 32, 1]⟩
abbrev S11008x4096 : Shape := ⟨2, ![11008, 4096]⟩
abbrev S4096x4096 : Shape := ⟨2, ![4096, 4096]⟩
abbrev S4096x11008 : Shape := ⟨2, ![4096, 11008]⟩
abbrev S2x2048x11008 : Shape := ⟨3, ![2, 2048, 11008]⟩
abbrev S1024x4096 : Shape := ⟨2, ![1024, 4096]⟩
abbrev S256x4096 : Shape := ⟨2, ![256, 4096]⟩
abbrev S1024x256 : Shape := ⟨2, ![1024, 256]⟩

abbrev nBuf : Space → Nat
  | .hbm => 43
  | .vmem => 6
  | .smem => 0
  | _ => 0

abbrev bufTy : (tb : Table) → Fin (tcTables nBuf tb) → BufTy
  | .hbm, ⟨0, _⟩ => ⟨S2x2048x4096, .f32⟩
  | .hbm, ⟨1, _⟩ => ⟨S11008x32x64, .i32⟩
  | .hbm, ⟨2, _⟩ => ⟨S176128, .i32⟩
  | .hbm, ⟨3, _⟩ => ⟨S352256, .f32⟩
  | .hbm, ⟨4, _⟩ => ⟨S_, .i32⟩
  | .hbm, ⟨5, _⟩ => ⟨S11008x32x64, .i32⟩
  | .hbm, ⟨6, _⟩ => ⟨S11008x32x64, .i32⟩
  | .hbm, ⟨7, _⟩ => ⟨S_, .i32⟩
  | .hbm, ⟨8, _⟩ => ⟨S11008x32x64, .i32⟩
  | .hbm, ⟨9, _⟩ => ⟨S11008x32x64, .i32⟩
  | .hbm, ⟨10, _⟩ => ⟨S_, .i32⟩
  | .hbm, ⟨11, _⟩ => ⟨S11008x32x64, .i32⟩
  | .hbm, ⟨12, _⟩ => ⟨S11008x32x64, .i32⟩
  | .hbm, ⟨13, _⟩ => ⟨S11008x32x64x1, .i32⟩
  | .hbm, ⟨14, _⟩ => ⟨S11008x32x64x1, .i32⟩
  | .hbm, ⟨15, _⟩ => ⟨S11008x32x64x2, .i32⟩
  | .hbm, ⟨16, _⟩ => ⟨S11008x32x128, .i32⟩
  | .hbm, ⟨17, _⟩ => ⟨S11008x32x128, .f32⟩
  | .hbm, ⟨18, _⟩ => ⟨S_, .i32⟩
  | .hbm, ⟨19, _⟩ => ⟨S176128, .i32⟩
  | .hbm, ⟨20, _⟩ => ⟨S176128, .i32⟩
  | .hbm, ⟨21, _⟩ => ⟨S_, .i32⟩
  | .hbm, ⟨22, _⟩ => ⟨S176128, .i32⟩
  | .hbm, ⟨23, _⟩ => ⟨S176128, .i32⟩
  | .hbm, ⟨24, _⟩ => ⟨S_, .i32⟩
  | .hbm, ⟨25, _⟩ => ⟨S176128, .i32⟩
  | .hbm, ⟨26, _⟩ => ⟨S176128, .i32⟩
  | .hbm, ⟨27, _⟩ => ⟨S176128x1, .i32⟩
  | .hbm, ⟨28, _⟩ => ⟨S176128x1, .i32⟩
  | .hbm, ⟨29, _⟩ => ⟨S176128x2, .i32⟩
  | .hbm, ⟨30, _⟩ => ⟨S11008x32x1, .i32⟩
  | .hbm, ⟨31, _⟩ => ⟨S11008x32x1, .f32⟩
  | .hbm, ⟨32, _⟩ => ⟨S11008x32x1, .f32⟩
  | .hbm, ⟨33, _⟩ => ⟨S11008x32x128, .f32⟩
  | .hbm, ⟨34, _⟩ => ⟨S11008x32x128, .f32⟩
  | .hbm, ⟨35, _⟩ => ⟨S11008x32x128, .f32⟩
  | .hbm, ⟨36, _⟩ => ⟨S11008x32x128, .f32⟩
  | .hbm, ⟨37, _⟩ => ⟨S11008x4096, .f32⟩
  | .hbm, ⟨38, _⟩ => ⟨S11008x4096, .bf16⟩
  | .hbm, ⟨39, _⟩ => ⟨S4096x4096, .f32⟩
  | .hbm, ⟨40, _⟩ => ⟨S4096x4096, .bf16⟩
  | .hbm, ⟨41, _⟩ => ⟨S4096x11008, .f32⟩
  | .hbm, ⟨42, _⟩ => ⟨S2x2048x11008, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1024x256, .f32⟩
  | .local _ .vmem, ⟨5, _⟩ => ⟨S1024x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_2 : Ref sig .tc := ⟨.hbm, 18, rfl⟩
abbrev main_call0_v11 : Ref sig .tc := ⟨.hbm, 19, rfl⟩
abbrev main_call0_v12 : Ref sig .tc := ⟨.hbm, 20, rfl⟩
abbrev main_call0_c_3 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_v31 : Ref sig .tc := ⟨.hbm, 41, rfl⟩
abbrev main_v0 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S11008x32x64 : S_.BroadcastsInDim S11008x32x64 (![] : Fin 0 → Fin S11008x32x64.rank)
  bcast_S11008x32x64_S11008x32x64x1_0_1_2 : S11008x32x64.BroadcastsInDim S11008x32x64x1 (![0, 1, 2] : Fin 3 → Fin S11008x32x64x1.rank)
  concatenates_S11008x32x64x1_S11008x32x64x1_S11008x32x64x2_d3 : Shape.Concatenates [S11008x32x64x1, S11008x32x64x1] S11008x32x64x2 3
  shapeCasts_S11008x32x64x2_S11008x32x128 : S11008x32x64x2.ShapeCasts S11008x32x128
  bcast_S_S176128 : S_.BroadcastsInDim S176128 (![] : Fin 0 → Fin S176128.rank)
  bcast_S176128_S176128x1_0 : S176128.BroadcastsInDim S176128x1 (![0] : Fin 1 → Fin S176128x1.rank)
  concatenates_S176128x1_S176128x1_S176128x2_d1 : Shape.Concatenates [S176128x1, S176128x1] S176128x2 1
  shapeCasts_S176128x2_S11008x32x1 : S176128x2.ShapeCasts S11008x32x1
  shapeCasts_S352256_S11008x32x1 : S352256.ShapeCasts S11008x32x1
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bitsLt_bf16_f32 : FTy.bits .bf16 < FTy.bits .f32
  shapeCasts_S2x2048x4096_S4096x4096 : S2x2048x4096.ShapeCasts S4096x4096
  shapeCasts_S4096x11008_S2x2048x11008 : S4096x11008.ShapeCasts S2x2048x11008
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x256_S1024x256_0_0 : ∀ a, (![0, 0] : Fin 2 → Nat) a + S1024x256.size a ≤ S1024x256.size a
  h_S1024x256 : 0 < S1024x256.numel
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x11008.size a
  hwx0_2 : ∀ i : grid0.Coords, EltTy.bits .f32 = 32 ∨ (Rect.block (s := S4096x11008) S1024x256.size (cc0_transform_2 i) (hinb0_2 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_call0_v30) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v28) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v31) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x32x64 : Shape := ⟨3, ![11008, 32, 64]⟩
abbrev S176128 : Shape := ⟨1, ![176128]⟩
abbrev S352256 : Shape := ⟨1, ![352256]⟩
abbrev S_ : Shape := ⟨0, ![]⟩
abbrev S11008x32x64x1 : Shape := ⟨4, ![11008, 32, 64, 1]⟩
abbrev S11008x32x64x2 : Shape := ⟨4, ![11008, 32, 64, 2]⟩
abbrev S11008x32x128 : Shape := ⟨3, ![11008, 32, 128]⟩
abbrev S176128x1 : Shape := ⟨2, ![176128, 1]⟩
abbrev S176128x2 : Shape := ⟨2, ![176128, 2]⟩
abbrev S11008x32x1 : Shape := ⟨3, ![11008, 32, 1]⟩
abbrev S11008x4096 : Shape := ⟨2, ![11008, 4096]⟩
abbrev S2x2048x11008 : Shape := ⟨3, ![2, 2048, 11008]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x32x64, .i32⟩
  | .hbm, ⟨2, _⟩ => ⟨S176128, .i32⟩
  | .hbm, ⟨3, _⟩ => ⟨S352256, .f32⟩
  | .hbm, ⟨4, _⟩ => ⟨S_, .i32⟩
  | .hbm, ⟨5, _⟩ => ⟨S11008x32x64, .i32⟩
  | .hbm, ⟨6, _⟩ => ⟨S11008x32x64, .i32⟩
  | .hbm, ⟨7, _⟩ => ⟨S_, .i32⟩
  | .hbm, ⟨8, _⟩ => ⟨S11008x32x64, .i32⟩
  | .hbm, ⟨9, _⟩ => ⟨S11008x32x64, .i32⟩
  | .hbm, ⟨10, _⟩ => ⟨S_, .i32⟩
  | .hbm, ⟨11, _⟩ => ⟨S11008x32x64, .i32⟩
  | .hbm, ⟨12, _⟩ => ⟨S11008x32x64, .i32⟩
  | .hbm, ⟨13, _⟩ => ⟨S11008x32x64x1, .i32⟩
  | .hbm, ⟨14, _⟩ => ⟨S11008x32x64x1, .i32⟩
  | .hbm, ⟨15, _⟩ => ⟨S11008x32x64x2, .i32⟩
  | .hbm, ⟨16, _⟩ => ⟨S11008x32x128, .i32⟩
  | .hbm, ⟨17, _⟩ => ⟨S11008x32x128, .f32⟩
  | .hbm, ⟨18, _⟩ => ⟨S_, .i32⟩
  | .hbm, ⟨19, _⟩ => ⟨S176128, .i32⟩
  | .hbm, ⟨20, _⟩ => ⟨S176128, .i32⟩
  | .hbm, ⟨21, _⟩ => ⟨S_, .i32⟩
  | .hbm, ⟨22, _⟩ => ⟨S176128, .i32⟩
  | .hbm, ⟨23, _⟩ => ⟨S176128, .i32⟩
  | .hbm, ⟨24, _⟩ => ⟨S_, .i32⟩
  | .hbm, ⟨25, _⟩ => ⟨S176128, .i32⟩
  | .hbm, ⟨26, _⟩ => ⟨S176128, .i32⟩
  | .hbm, ⟨27, _⟩ => ⟨S176128x1, .i32⟩
  | .hbm, ⟨28, _⟩ => ⟨S176128x1, .i32⟩
  | .hbm, ⟨29, _⟩ => ⟨S176128x2, .i32⟩
  | .hbm, ⟨30, _⟩ => ⟨S11008x32x1, .i32⟩
  | .hbm, ⟨31, _⟩ => ⟨S11008x32x1, .f32⟩
  | .hbm, ⟨32, _⟩ => ⟨S11008x32x1, .f32⟩
  | .hbm, ⟨33, _⟩ => ⟨S11008x32x128, .f32⟩
  | .hbm, ⟨34, _⟩ => ⟨S11008x32x128, .f32⟩
  | .hbm, ⟨35, _⟩ => ⟨S11008x32x128, .f32⟩
  | .hbm, ⟨36, _⟩ => ⟨S11008x32x128, .f32⟩
  | .hbm, ⟨37, _⟩ => ⟨S11008x4096, .f32⟩
  | .hbm, ⟨38, _⟩ => ⟨S2x2048x11008, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S11008x32x64 : S_.BroadcastsInDim S11008x32x64 (![] : Fin 0 → Fin S11008x32x64.rank)
  bcast_S11008x32x64_S11008x32x64x1_0_1_2 : S11008x32x64.BroadcastsInDim S11008x32x64x1 (![0, 1, 2] : Fin 3 → Fin S11008x32x64x1.rank)
  concatenates_S11008x32x64x1_S11008x32x64x1_S11008x32x64x2_d3 : Shape.Concatenates [S11008x32x64x1, S11008x32x64x1] S11008x32x64x2 3
  shapeCasts_S11008x32x64x2_S11008x32x128 : S11008x32x64x2.ShapeCasts S11008x32x128
  bcast_S_S176128 : S_.BroadcastsInDim S176128 (![] : Fin 0 → Fin S176128.rank)
  bcast_S176128_S176128x1_0 : S176128.BroadcastsInDim S176128x1 (![0] : Fin 1 → Fin S176128x1.rank)
  concatenates_S176128x1_S176128x1_S176128x2_d1 : Shape.Concatenates [S176128x1, S176128x1] S176128x2 1
  shapeCasts_S176128x2_S11008x32x1 : S176128x2.ShapeCasts S11008x32x1
  shapeCasts_S352256_S11008x32x1 : S352256.ShapeCasts S11008x32x1
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S2x2048x4096_S11008x4096_S2x2048x11008_2_1_01_0_n_n_wf : DotDims.WF S2x2048x4096 S11008x4096 S2x2048x11008 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf

class Facts : Prop extends Facts₀ where

variable [Facts]
-- ==== Proof.TileProduct.lean ====
/-
  One grid point's arithmetic, read at an index.

  The body loads a tile of activations `a : [1024, 4096]` and a tile of weights `w : [256, 4096]`, and stores the
  matrix product that contracts the two long axes into a zero accumulator.  Over the extended reals that store
  holds, at row `p` and column `q`, the plain sum  Σ_k a[p, k] · w[q, k]  over the 4096 contracted positions:
  the zero accumulator adds nothing, the two same-shape casts are the identity, and the contraction's one axis is
  re-indexed by `Fin 4096`.
-/
import proofs.«406165_j31035433681260_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileProduct

open Cert.KernelIdeal Cert.KernelIdeal.Gen Idealize.ShloMosaic Idealize.ShloMosaic.ValueIdx

/-! ## Where the product reads its two operands -/

/-- The activation tile is read at the output's row … -/
theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- … and at the contracted position. -/
theorem lhs_contr (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The weight tile is read at the output's COLUMN (its rows are output features) … -/
theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- … and at the contracted position. -/
theorem rhs_contr (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-! ## The stored tile at an index -/

/-- Entry `(p, q)` of the stored tile is the inner product of row `p` of the activation tile with row `q` of the
    weight tile. -/
theorem pay_apply (a : FVec Ideal S1024x4096 .bf16) (w : FVec Ideal S256x4096 .bf16) (p : Fin 1024) (q : Fin 256) :
    k0_pay1 (F := Ideal) a w (ix2 p q) = ∑ k : Fin 4096, a (ix2 p k) * w (ix2 q k) := by
  unfold k0_pay1
  simp only [shapeCast_self]
  unfold matmul
  rw [Ideal.matmul_constant_zero_apply,
    ← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k := funext fun d => Fin.ext (by
    match d with
    | ⟨0, _⟩ => exact lhs_row _ _
    | ⟨1, _⟩ => exact (lhs_contr _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k := funext fun d => Fin.ext (by
    match d with
    | ⟨0, _⟩ => exact rhs_row _ _
    | ⟨1, _⟩ => exact (rhs_contr _ _).trans hk)
  rw [el, er]

end Cert.KernelIdeal.TileProduct

end
-- ==== Proof.WholeProduct.lean ====
/-
  From the tiles to the whole product.

  The grid has 4 × 43 points.  At point (mi, ni) the pipeline stages rows mi·1024 … mi·1024 + 1023 of the activation
  matrix X : [4096, 4096] (all 4096 columns), rows ni·256 … ni·256 + 255 of the weight matrix W : [11008, 4096], and
  writes back the 1024 × 256 tile of the output whose corner is (mi·1024, ni·256).  By the tile's arithmetic that tile
  is the restriction of ONE function of the two matrices,

      prod X W (r, n) = Σ_k X[r, k] · W[n, k],

  because a tile's row p sits at array row mi·1024 + p and its column q at array row ni·256 + q of W, while the
  contracted axis is staged whole.  The 172 tiles cover the output (row r lies in tile row r / 1024, column n in tile
  column n / 256; 11008 = 43 · 256), so after the last write-back the output array IS `prod X W`.
-/
import proofs.«406165_j31035433681260_3_alg».proof.Proof.Gen.KernelIdeal.Frame
import proofs.«406165_j31035433681260_3_alg».proof.Proof.TileProduct
import Idealize.ShloMosaic.Lib.Pipeline.Value
import Idealize.ShloMosaic.Lib.ValueIdx

set_option maxRecDepth 16384

noncomputable section

namespace Cert.KernelIdeal.WholeProduct

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- Every row of X against every row of W: the [4096, 11008] matrix of inner products over the 4096 shared columns. -/
def prod (X : FVec Ideal S4096x4096 .bf16) (W : FVec Ideal S11008x4096 .bf16) : FVec Ideal S4096x11008 .f32 :=
  fun i => ∑ k : Fin 4096, X (ix2 (⟨(i 0).val, (i 0).isLt⟩ : Fin 4096) k) * W (ix2 (⟨(i 1).val, (i 1).isLt⟩ : Fin 11008) k)

theorem origin : (![0, 0] : Fin 2 → Nat) = fun _ => 0 := funext fun a => by fin_cases a <;> rfl

/-- The three index maps over the grid: the activation tile follows the output tile's row block and the weight tile
    its column block, both stage the contracted axis from its start, and the output's block indices stay in range. -/
theorem tile_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 42 :=
  (by decide +kernel : ∀ t : Fin grid0.N, _)

/-- Every (row block, column block) pair is some grid point's. -/
theorem tile_onto : ∀ (q0 : Fin 4) (q1 : Fin 43), ∃ t : Fin cfg0.N, win0_2.index t = ![q0.val, q1.val] :=
  (by decide +kernel : ∀ (q0 : Fin 4) (q1 : Fin 43), ∃ t : Fin grid0.N, win0_2.index t = ![q0.val, q1.val])

/-- What point `t` writes back is its tile of the whole product of the two matrices as the region finds them. -/
theorem flushed_eq (c : Dev nD) (t : Fin cfg0.N) :
    (dats m 0 c).flushed 2 t
      = ((cfg0.win 2).blk t).view.read (Elt Ideal) (prod (V m c main_call0_v30) (V m c main_call0_v28)) := by
  show (cfg0.win 2).cut (grid0.coords t) ((dats m 0 c).after 2 t) = _
  rw [after0_2]
  unfold out0_2
  rw [View.canon_unit_zero origin]
  simp only [View.ld_unit_zero (S := S1024x4096) origin, View.ld_unit_zero (S := S256x4096) origin]
  obtain ⟨e0, e1, e2, e3, e4, e5⟩ := tile_indices t
  funext j
  obtain ⟨p, q, rfl⟩ : ∃ (p : Fin 1024) (q : Fin 256), j = ix2 p q := ⟨j 0, j 1, eq_ix2 j⟩
  show k0_pay1 (F := Ideal) (iblk m c 0 t) (iblk m c 1 t) (ix2 p q)
    = prod (V m c main_call0_v30) (V m c main_call0_v28) (((cfg0.win 2).blk t).view.emb (ix2 p q))
  refine (TileProduct.pay_apply (iblk m c 0 t) (iblk m c 1 t) p q).trans ?_
  unfold prod
  refine Finset.sum_congr rfl fun k _ => ?_
  have hp : p.val < 1024 := p.isLt
  have hq : q.val < 256 := q.isLt
  have hk : k.val < 4096 := k.isLt
  have h0 : ((cfg0.win 0).blk t).view.emb (ix2 p k)
      = ix2 (⟨((((cfg0.win 2).blk t).view.emb (ix2 p q)) 0).val, ((((cfg0.win 2).blk t).view.emb (ix2 p q)) 0).isLt⟩ : Fin 4096) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 4096 + 1 * k.val = k.val; omega
  have h1 : ((cfg0.win 1).blk t).view.emb (ix2 q k)
      = ix2 (⟨((((cfg0.win 2).blk t).view.emb (ix2 p q)) 1).val, ((((cfg0.win 2).blk t).view.emb (ix2 p q)) 1).isLt⟩ : Fin 11008) k := by
    funext a; apply Fin.ext
    match a with
    | ⟨0, _⟩ => show win0_1.index t (0 : Fin 2) * 256 + 1 * q.val = win0_2.index t (1 : Fin 2) * 256 + 1 * q.val; omega
    | ⟨1, _⟩ => show win0_1.index t (1 : Fin 2) * 4096 + 1 * k.val = k.val; omega
  refine congrArg₂ (· * ·) ?_ ?_
  · exact congrArg (V m c main_call0_v30) h0
  · exact congrArg (V m c main_call0_v28) h1

/-- An index of the output is in point `t`'s tile iff each coordinate is in the tile's range on its axis. -/
theorem mem_tile (t : Fin cfg0.N) (i : S4096x11008.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_call0_v31).slice (win0_2.rect t)).set ↔ _
  rw [View.set_slice_whole, Rect.mem_set_unit]
  exact Iff.rfl

/-- The tiles cover the output: entry (r, n) lies in the tile of row block r / 1024 and column block n / 256. -/
theorem cover (i : S4096x11008.Idx) :
    ∃ t : Fin cfg0.N, (cfg0.win 2).flush t = true ∧ i ∈ ((cfg0.win 2).blk t).view.set := by
  have hi0 : (i 0).val < 4096 := (i 0).isLt
  have hi1 : (i 1).val < 11008 := (i 1).isLt
  obtain ⟨t, ht⟩ := tile_onto ⟨(i 0).val / 1024, by omega⟩ ⟨(i 1).val / 256, by omega⟩
  have q0 : win0_2.index t (0 : Fin 2) = (i 0).val / 1024 := congrFun ht 0
  have q1 : win0_2.index t (1 : Fin 2) = (i 1).val / 256 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- After the last write-back the output array is the whole product. -/
theorem final (c : Dev nD) :
    (dats m 0 c).arrAt 2 cfg0.N = prod (V m c main_call0_v30) (V m c main_call0_v28) :=
  (dats m 0 c).arrAt_eq_of_cover 2 (prod (V m c main_call0_v30) (V m c main_call0_v28))
    (fun t _ => flushed_eq m c t) cover

end Cert.KernelIdeal.WholeProduct

end
-- ==== Proof.Contraction.lean ====
/-
  The function both programs compute.

  For activations x : [2, 2048, 4096] and a weight matrix W : [11008, 4096] (one row per output feature), the result
  at batch b, position s and feature n is the inner product of x[b, s, ·] with W[n, ·]:

      contraction x W (b, s, n) = Σ_k x[b, s, k] · W[n, k],     k over the 4096 input features.

  Each side reaches this one sum with its factors in the same order (activation times weight), so no law of the
  extended reals beyond reading the sum at an index is used and the inputs' finiteness plays no part.
-/
import Idealize.ShloMosaic.PureOps.Ideal
import Idealize.ShloMosaic.Lib.ValueIdx

noncomputable section

namespace Cert.Contraction

open Idealize.ShloMosaic Idealize.ShloMosaic.ValueIdx

abbrev Acts : Shape := ⟨3, ![2, 2048, 4096]⟩
abbrev Weights : Shape := ⟨2, ![11008, 4096]⟩
abbrev Outs : Shape := ⟨3, ![2, 2048, 11008]⟩

/-- x contracted with W over the input features. -/
def contraction (x : FVec Ideal Acts .f32) (W : FVec Ideal Weights .f32) : FVec Ideal Outs .f32 :=
  fun i => ∑ k : Fin 4096,
    x (ix3 (⟨(i 0).val, (i 0).isLt⟩ : Fin 2) (⟨(i 1).val, (i 1).isLt⟩ : Fin 2048) k)
      * W (ix2 (⟨(i 2).val, (i 2).isLt⟩ : Fin 11008) k)

end Cert.Contraction

end
-- ==== Proof.Folding.lean ====
/-
  The kernel's operands and result are re-laid forms of the specification's.

  The kernel flattens the activations' two leading axes, x2[b·2048 + s, k] = x[b, s, k], changes both operands'
  float format (the identity on the extended reals), multiplies, and unflattens the result's rows again,
  out[b, s, n] = product[b·2048 + s, n].  Both re-layings are row-major, so reading the final array at (b, s, n)
  gives Σ_k x[b, s, k] · W[n, k].
-/
import proofs.«406165_j31035433681260_3_alg».proof.Proof.WholeProduct
import proofs.«406165_j31035433681260_3_alg».proof.Proof.Contraction

noncomputable section

namespace Cert.KernelIdeal.Folding

open Cert.KernelIdeal Idealize.ShloMosaic Idealize.ShloMosaic.ValueIdx Cert.Contraction

/-- Unflattening the product of the flattened, format-changed operands gives the contraction. -/
theorem unfold_prod (x : FVec Ideal S2x2048x4096 .f32) (W : FVec Ideal S11008x4096 .f32)
    (hx : S2x2048x4096.ShapeCasts S4096x4096) (ho : S4096x11008.ShapeCasts S2x2048x11008)
    (hb : FTy.bf16.bits < FTy.f32.bits) :
    shapeCast S2x2048x11008
        (WholeProduct.prod (truncf .bf16 (shapeCast S4096x4096 x hx) hb) (truncf .bf16 W hb)) ho
      = contraction x W := by
  funext i
  have h0 : (i 0).val < 2 := (i 0).isLt
  have h1 : (i 1).val < 2048 := (i 1).isLt
  have h2 : (i 2).val < 11008 := (i 2).isLt
  rw [shapeCast_apply _ ho i (ix2 (⟨(i 0).val * 2048 + (i 1).val, by omega⟩ : Fin 4096) (⟨(i 2).val, h2⟩ : Fin 11008))
    (by rw [Shape.rowMajor_val_two, Shape.rowMajor_val_three]; rfl)]
  unfold WholeProduct.prod contraction
  refine Finset.sum_congr rfl fun k _ => ?_
  have hk : k.val < 4096 := k.isLt
  refine congrArg₂ (· * ·) ?_ rfl
  show shapeCast S4096x4096 x hx (ix2 (⟨(i 0).val * 2048 + (i 1).val, by omega⟩ : Fin 4096) k) = _
  exact shapeCast_apply x hx _ _ (by rw [Shape.rowMajor_val_three, Shape.rowMajor_val_two]; rfl)

end Cert.KernelIdeal.Folding

end
-- ==== Proof.KernelRun.lean ====
/-
  The kernel's run, read.

  Before the tiled product the host dequantizes the weights (the same operations, in the same order, as the
  reference's, so the matrix W it builds is the reference's W of the same three arguments), changes W's and the
  flattened activations' float format, and after the product it unflattens the result's rows.  So every weakly
  fair execution ends with the result array at the contraction of the activations with W, the four arguments
  untouched.
-/
import proofs.«406165_j31035433681260_3_alg».proof.Proof.Folding
import proofs.«406165_j31035433681260_3_alg».proof.Proof.Gen.ReferenceIdeal.Read
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe
open Idealize.SL.Sem Idealize.ShloMosaic.StableHlo Cert.Contraction

variable (m : (ℓ : Loc nD τ sig) → Buf (Elt Ideal) ℓ) (ρ : Dev nD → PrngReg)

/-- The dequantized weight matrix of the three quantization arguments as launched. -/
abbrev weights (c : Dev nD) : FVec Ideal S11008x4096 .f32 :=
  Cert.ReferenceIdeal.Read.val_main_v27 (F := Ideal) (m ((c : Thread nD τ).loc main_arg1))
    (m ((c : Thread nD τ).loc main_arg2)) (m ((c : Thread nD τ).loc main_arg3))

/-- The region finds the activations flattened to [4096, 4096] and format-changed. -/
theorem acts_entry (c : Dev nD) :
    (V m c main_call0_v30 : FVec Ideal S4096x4096 .bf16)
      = truncf (F := Ideal) .bf16 (shapeCast S4096x4096 (m ((c : Thread nD τ).loc main_arg0)) shapeCasts_S2x2048x4096_S4096x4096) bitsLt_bf16_f32 := by
  show StableHlo.after hostOps0 (fun b => m (c, b)) (Proc.devRef .tc main_call0_v30) = _
  after_results
  rfl

set_option maxHeartbeats 2000000 in
/-- The region finds the weights dequantized exactly as the reference dequantizes them, format-changed. -/
theorem weights_entry (c : Dev nD) :
    (V m c main_call0_v28 : FVec Ideal S11008x4096 .bf16) = truncf (F := Ideal) .bf16 (weights m c) bitsLt_bf16_f32 := by
  show StableHlo.after hostOps0 (fun b => m (c, b)) (Proc.devRef .tc main_call0_v28) = _
  after_results_simp <;> rfl

/-- The line after the region unflattens the whole product's rows. -/
theorem tail_result (c : Dev nD) :
    Pipeline.afterTail₀ cfgs (dats m) 0 (V0 m) [hostOps1] c main_v0
      = shapeCast S2x2048x11008 (WholeProduct.prod (V m c main_call0_v30) (V m c main_call0_v28)) shapeCasts_S4096x11008_S2x2048x11008 := by
  have hw := (Pipeline.withArrays_arr spec0 launch0.win.arr_inj c (V0 m c) (fun w => (dats m 0 c).arrAt w cfg0.N) 2).trans
    (WholeProduct.final m c)
  unfold Pipeline.afterTail₀
  show StableHlo.after hostOps1 _ (Proc.devRef .tc main_v0) = _
  after_results
  exact congrArg (fun X => shapeCast S2x2048x11008 X shapeCasts_S4096x11008_S2x2048x11008) hw

/-- The result array after the run is the contraction of the activations with the dequantized weights. -/
theorem result_eq (c : Dev nD) :
    Pipeline.afterTail₀ cfgs (dats m) 0 (V0 m) [hostOps1] c main_v0
      = contraction (m ((c : Thread nD τ).loc main_arg0)) (weights m c) := by
  rw [tail_result, acts_entry, weights_entry]
  exact Folding.unfold_prod _ _ _ _ _

/-- Every weakly fair execution of the kernel's program terminates with the result at the contraction and the
    arguments as launched. -/
theorem run : θ_run defs (onTc (τ := τ) (main (F := Ideal))) ⟨m, fun _ => 0, ρ⟩ fun r => ∀ c : Dev nD,
      r.2.mem ((c.tc : Thread nD τ).loc main_v0) = contraction (m ((c.tc : Thread nD τ).loc main_arg0)) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefContraction.lean ====
/-
  The reference computes the contraction.

  Its last operation contracts axis 2 of the activations with axis 1 of the dequantized weights, keeping the
  activations' two leading axes and then the weights' row axis: at (b, s, n) it reads x at (b, s, k) and W at (n, k),
  which are the specification's two factors, in its order.
-/
import proofs.«406165_j31035433681260_3_alg».proof.Proof.Gen.ReferenceIdeal.Read
import proofs.«406165_j31035433681260_3_alg».proof.Proof.Contraction

noncomputable section

namespace Cert.ReferenceIdeal.RefContraction

open Cert.ReferenceIdeal Cert.ReferenceIdeal.Read Idealize.ShloMosaic Idealize.ShloMosaic.ValueIdx Cert.Contraction

/-- The reference's result is the contraction of the activations with its dequantized weights. -/
theorem result_eq (x : FVec Ideal S2x2048x4096 .f32) (q : (⟨S11008x32x64, .i32⟩ : BufTy).Contents (Elt Ideal))
    (z : (⟨S176128, .i32⟩ : BufTy).Contents (Elt Ideal)) (s : FVec Ideal S352256 .f32) :
    val_main_v28 (F := Ideal) x q z s = contraction x (val_main_v27 (F := Ideal) q z s) := by
  funext i
  rw [val_main_v28_apply]
  unfold contraction
  refine Finset.sum_congr rfl fun k _ => ?_
  have el : lidx_main_v28 i k = ix3 (⟨(i 0).val, (i 0).isLt⟩ : Fin 2) (⟨(i 1).val, (i 1).isLt⟩ : Fin 2048) k :=
    funext fun a => Fin.ext (by match a with | ⟨0, _⟩ => rfl | ⟨1, _⟩ => rfl | ⟨2, _⟩ => rfl)
  have er : ridx_main_v28 i k = ix2 (⟨(i 2).val, (i 2).isLt⟩ : Fin 11008) k :=
    funext fun a => Fin.ext (by match a with | ⟨0, _⟩ => rfl | ⟨1, _⟩ => rfl)
  rw [el, er]

end Cert.ReferenceIdeal.RefContraction

end
-- ==== Proof.lean ====
/-
  A linear layer with 4-bit quantized weights: out[b, s, n] = Σ_k x[b, s, k] · W[n, k], where W[n, k] is rebuilt
  from packed nibbles as (q − zero-point) · scale, group by group.

  Both programs rebuild W on the host with the same operations in the same order (mask and shift the packed words,
  interleave the two nibbles, subtract the group's zero point, multiply by its scale), so W is one function of the
  three quantization arguments on both sides and is never opened here.  They differ only in how the product is
  taken.  The reference contracts the activations' last axis with W's last axis in one host operation.  The kernel
  flattens the activations to a [4096, 4096] matrix, changes both operands' float format (the identity on the
  extended reals), and forms the [4096, 11008] product tile by tile on a 4 × 43 grid, each 1024 × 256 tile one
  matrix product over the whole contracted axis into a zero accumulator; the tiles cover the product, and the
  result's rows are unflattened again.  Index by index both results are the same sum, with the factors in the same
  order: no law of the extended reals is needed and the inputs' finiteness is not used.

  The three frames: the two kernel programs' are the generated frame certificates; the reference's is its run with
  the result dropped.  The idealization rewrote no operation, so there is nothing to preserve.
-/
import proofs.«406165_j31035433681260_3_alg».proof.Defs
import proofs.«406165_j31035433681260_3_alg».proof.Proof.Gen.Kernel
import proofs.«406165_j31035433681260_3_alg».proof.Proof.Gen.Kernel.Skeleton
import proofs.«406165_j31035433681260_3_alg».proof.Proof.Gen.Kernel.Launch
import proofs.«406165_j31035433681260_3_alg».proof.Proof.Gen.Kernel.Points
import proofs.«406165_j31035433681260_3_alg».proof.Proof.Gen.Kernel.Frame
import proofs.«406165_j31035433681260_3_alg».proof.Proof.Gen.KernelIdeal
import proofs.«406165_j31035433681260_3_alg».proof.Proof.Gen.KernelIdeal.Skeleton
import proofs.«406165_j31035433681260_3_alg».proof.Proof.Gen.KernelIdeal.Launch
import proofs.«406165_j31035433681260_3_alg».proof.Proof.Gen.KernelIdeal.Points
import proofs.«406165_j31035433681260_3_alg».proof.Proof.Gen.KernelIdeal.Frame
import proofs.«406165_j31035433681260_3_alg».proof.Proof.Gen.ReferenceIdeal
import proofs.«406165_j31035433681260_3_alg».proof.Proof.Gen.ReferenceIdeal.Run
import proofs.«406165_j31035433681260_3_alg».proof.Proof.Gen.ReferenceIdeal.Read
import proofs.«406165_j31035433681260_3_alg».proof.Proof.Gen.Pre_finite_inputs
import proofs.«406165_j31035433681260_3_alg».proof.Proof.KernelRun
import proofs.«406165_j31035433681260_3_alg».proof.Proof.RefContraction
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's program ends with its result at the contraction of
    the activations with the dequantized weights, and the reference's program with its result at the same
    contraction of the same arguments. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefContraction.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
